-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S1 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x1 : Shape := ⟨2, ![1, 1]⟩
abbrev S1x64 : Shape := ⟨2, ![1, 64]⟩
abbrev S10000x64 : Shape := ⟨2, ![10000, 64]⟩

abbrev nBuf : Space → Nat
  | .hbm => 27
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S1, .f32⟩
  | .hbm, ⟨6, _⟩ => ⟨S64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x1, .f32⟩
  | .hbm, ⟨24, _⟩ => ⟨S1x64, .f32⟩
  | .hbm, ⟨25, _⟩ => ⟨S100000x64, .f32⟩
  | .hbm, ⟨26, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S1x1, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S1_S1x1 : S1.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S1 : Shape := ⟨1, ![1]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x1 : Shape := ⟨2, ![1, 1]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S1, .f32⟩
  | .hbm, ⟨6, _⟩ => ⟨S64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x1, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NodeUpdate.lean ====
/-
  One round of sum-aggregation message passing on a graph of 100000 nodes with 64 features, as functions of arrays
  over the extended reals.

  `rep A X e` adds to the aggregated neighbour messages `A` the node's own features `X` scaled by `e`:
      rep[n, d] = A[n, d] + e · X[n, d].
  `out R W b` is the dense layer applied to every node's row of `R`:
      out[n, o] = Σ_k R[n, k] · W[k, o] + b[o].
  Both are stated entry by entry; `out` at the entry with coordinates `(p, q)` is the sum over the 64 features.
-/
import Idealize.ShloMosaic.Lib.ValueIdx

noncomputable section

open scoped BigOperators

namespace Cert.NodeUpdate

open Idealize.ShloMosaic Idealize.ShloMosaic.ValueIdx

/-- The node representation: aggregated messages plus the scaled self features, entry by entry. -/
def rep (A X : FVec Ideal ⟨2, ![100000, 64]⟩ .f32) (e : Ideal .f32) : FVec Ideal ⟨2, ![100000, 64]⟩ .f32 :=
  fun i => A i + e * X i

/-- The dense layer: every row of `R` times the 64 × 64 weight, plus the bias of the output column. -/
def out (R : FVec Ideal ⟨2, ![100000, 64]⟩ .f32) (W : FVec Ideal ⟨2, ![64, 64]⟩ .f32) (b : Fin 64 → Ideal .f32) :
    FVec Ideal ⟨2, ![100000, 64]⟩ .f32 :=
  fun i => (∑ k : Fin 64, R (ix2 ⟨(i 0).val, idx2_lt0 i⟩ k) * W (ix2 k ⟨(i 1).val, idx2_lt1 i⟩)) + b ⟨(i 1).val, idx2_lt1 i⟩

theorem rep_apply (A X : FVec Ideal ⟨2, ![100000, 64]⟩ .f32) (e : Ideal .f32) (i : (⟨2, ![100000, 64]⟩ : Shape).Idx) :
    rep A X e i = A i + e * X i := rfl

/-- The dense layer at the entry of node `p` and output feature `q`. -/
theorem out_apply (R : FVec Ideal ⟨2, ![100000, 64]⟩ .f32) (W : FVec Ideal ⟨2, ![64, 64]⟩ .f32) (b : Fin 64 → Ideal .f32)
    (p : Fin 100000) (q : Fin 64) :
    out R W b (ix2 p q) = (∑ k : Fin 64, R (ix2 p k) * W (ix2 k q)) + b q := rfl

/-- The dense layer at any entry whose coordinates are `p` and `q`. -/
theorem out_apply_of (R : FVec Ideal ⟨2, ![100000, 64]⟩ .f32) (W : FVec Ideal ⟨2, ![64, 64]⟩ .f32) (b : Fin 64 → Ideal .f32)
    (i : (⟨2, ![100000, 64]⟩ : Shape).Idx) (p : Fin 100000) (q : Fin 64) (hp : (i 0).val = p.val) (hq : (i 1).val = q.val) :
    out R W b i = (∑ k : Fin 64, R (ix2 p k) * W (ix2 k q)) + b q := by
  obtain rfl : i = ix2 p q := by
    funext a; apply Fin.ext
    match a with
    | ⟨0, _⟩ => exact hp
    | ⟨1, _⟩ => exact hq
  rfl

/-- The only index of a 1 × 1 array. -/
theorem idx11 (k : (⟨2, ![1, 1]⟩ : Shape).Idx) : k = ix2 0 0 := by
  funext a; apply Fin.ext
  match a with
  | ⟨0, _⟩ => have := (k 0).isLt; show (k 0).val = 0; simp at this; omega
  | ⟨1, _⟩ => have := (k 1).isLt; show (k 1).val = 0; simp at this; omega

end Cert.NodeUpdate

end
-- ==== Proof.Rows.lean ====
/-
  The arrays the kernel call finds, and each block a grid point loads as rows of its array.

  Grid point `t` works on node rows `10000·t … 10000·t + 9999`: the blocks of the aggregated messages and of the
  features are those rows; the weight, the bias row and the scale are read whole at every point.
-/
import proofs.«123866_j62586263437744_1_alg».proof.Proof.Gen.KernelIdeal.Value
import proofs.«123866_j62586263437744_1_alg».proof.Proof.NodeUpdate
import Idealize.ShloMosaic.Lib.Pipeline.Value

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each operand's block sits at grid point `t`: row block `t` for the row-tiled arrays, the one whole block
    for the weight, the bias row and the scale. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The arrays the call finds -/

/-- The aggregated messages, as the call finds them. -/
abbrev aggA (c : Dev nD) : Vec Ideal S100000x64 .f32 := V m c main_v12
/-- The node features. -/
abbrev featA (c : Dev nD) : Vec Ideal S100000x64 .f32 := V m c main_arg0
/-- The weight. -/
abbrev weightA (c : Dev nD) : Vec Ideal S64x64 .f32 := V m c main_arg4
/-- The bias row. -/
abbrev biasA (c : Dev nD) : Vec Ideal S1x64 .f32 := V m c main_v14
/-- The 1 × 1 scale. -/
abbrev scaleA (c : Dev nD) : Vec Ideal S1x1 .f32 := V m c main_v13

/-- The node representation of the arrays the call finds. -/
def repA (c : Dev nD) : Vec Ideal S100000x64 .f32 :=
  Cert.NodeUpdate.rep (aggA m c) (featA m c) (scaleA m c (ix2 0 0))
/-- The dense layer of it. -/
def outA (c : Dev nD) : Vec Ideal S100000x64 .f32 :=
  Cert.NodeUpdate.out (repA m c) (weightA m c) (fun q => biasA m c (ix2 0 q))

/-! ## Each loaded block is rows of its array -/

/-- Operand 0's block at point `t`, read off any array `X`, is rows `10000·t …` of `X`. -/
theorem read_rows_0 (t : Fin cfg0.N) (X : Vec Ideal S100000x64 .f32) (y : S10000x64.Idx) (i : S100000x64.Idx)
    (h0 : (i 0).val = t.val * 10000 + (y 0).val) (h1 : (i 1).val = (y 1).val) :
    (((cfg0.win 0).blk t).view.read (Elt Ideal) X : Vec Ideal S10000x64 .f32) y = X i := by
  obtain ⟨e0, e1, -⟩ := block_index t
  have he : ((cfg0.win 0).blk t).view.emb y = i := by
    funext a; apply Fin.ext
    match a with
    | ⟨0, _⟩ => show win0_0.index t (0 : Fin 2) * 10000 + 1 * (y 0).val = (i 0).val; rw [e0, h0]; omega
    | ⟨1, _⟩ => show win0_0.index t (1 : Fin 2) * 64 + 1 * (y 1).val = (i 1).val; rw [e1, h1]; omega
  show X (((cfg0.win 0).blk t).view.emb y) = X i
  rw [he]

/-- Operand 1's block at point `t`, read off any array `X`, is rows `10000·t …` of `X`. -/
theorem read_rows_1 (t : Fin cfg0.N) (X : Vec Ideal S100000x64 .f32) (y : S10000x64.Idx) (i : S100000x64.Idx)
    (h0 : (i 0).val = t.val * 10000 + (y 0).val) (h1 : (i 1).val = (y 1).val) :
    (((cfg0.win 1).blk t).view.read (Elt Ideal) X : Vec Ideal S10000x64 .f32) y = X i := by
  obtain ⟨-, -, e0, e1, -⟩ := block_index t
  have he : ((cfg0.win 1).blk t).view.emb y = i := by
    funext a; apply Fin.ext
    match a with
    | ⟨0, _⟩ => show win0_1.index t (0 : Fin 2) * 10000 + 1 * (y 0).val = (i 0).val; rw [e0, h0]; omega
    | ⟨1, _⟩ => show win0_1.index t (1 : Fin 2) * 64 + 1 * (y 1).val = (i 1).val; rw [e1, h1]; omega
  show X (((cfg0.win 1).blk t).view.emb y) = X i
  rw [he]

/-- Operand 2's block at any point, read off any array `X`, is `X` whole. -/
theorem read_whole_2 (t : Fin cfg0.N) (X : Vec Ideal S64x64 .f32) (y : S64x64.Idx) :
    (((cfg0.win 2).blk t).view.read (Elt Ideal) X : Vec Ideal S64x64 .f32) y = X y := by
  obtain ⟨-, -, -, -, e0, e1, -⟩ := block_index t
  have he : ((cfg0.win 2).blk t).view.emb y = y := by
    funext a; apply Fin.ext
    match a with
    | ⟨0, _⟩ => show win0_2.index t (0 : Fin 2) * 64 + 1 * (y 0).val = (y 0).val; rw [e0]; omega
    | ⟨1, _⟩ => show win0_2.index t (1 : Fin 2) * 64 + 1 * (y 1).val = (y 1).val; rw [e1]; omega
  show X (((cfg0.win 2).blk t).view.emb y) = X y
  rw [he]

/-- Operand 3's block at any point, read off any array `X`, is `X` whole. -/
theorem read_whole_3 (t : Fin cfg0.N) (X : Vec Ideal S1x64 .f32) (y : S1x64.Idx) :
    (((cfg0.win 3).blk t).view.read (Elt Ideal) X : Vec Ideal S1x64 .f32) y = X y := by
  obtain ⟨-, -, -, -, -, -, e0, e1, -⟩ := block_index t
  have he : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 64 + 1 * (y 1).val = (y 1).val; rw [e1]; omega
  show X (((cfg0.win 3).blk t).view.emb y) = X y
  rw [he]

/-- Operand 4's block at any point, read off any array `X`, is `X` whole. -/
theorem read_whole_4 (t : Fin cfg0.N) (X : Vec Ideal S1x1 .f32) (y : S1x1.Idx) :
    (((cfg0.win 4).blk t).view.read (Elt Ideal) X : Vec Ideal S1x1 .f32) y = X y := by
  obtain ⟨-, -, -, -, -, -, -, -, e0, e1, -⟩ := block_index t
  have he : ((cfg0.win 4).blk t).view.emb y = y := by
    funext a; apply Fin.ext
    match a with
    | ⟨0, _⟩ => show win0_4.index t (0 : Fin 2) * 1 + 1 * (y 0).val = (y 0).val; rw [e0]; omega
    | ⟨1, _⟩ => show win0_4.index t (1 : Fin 2) * 1 + 1 * (y 1).val = (y 1).val; rw [e1]; omega
  show X (((cfg0.win 4).blk t).view.emb y) = X y
  rw [he]

theorem agg_block (c : Dev nD) (t : Fin cfg0.N) (y : S10000x64.Idx) (i : S100000x64.Idx)
    (h0 : (i 0).val = t.val * 10000 + (y 0).val) (h1 : (i 1).val = (y 1).val) :
    (iblk m c 0 t : Vec Ideal S10000x64 .f32) y = aggA m c i := by
  unfold iblk
  exact read_rows_0 t (V m c main_v12) y i h0 h1

theorem feat_block (c : Dev nD) (t : Fin cfg0.N) (y : S10000x64.Idx) (i : S100000x64.Idx)
    (h0 : (i 0).val = t.val * 10000 + (y 0).val) (h1 : (i 1).val = (y 1).val) :
    (iblk m c 1 t : Vec Ideal S10000x64 .f32) y = featA m c i := by
  unfold iblk
  exact read_rows_1 t (V m c main_arg0) y i h0 h1

theorem weight_block (c : Dev nD) (t : Fin cfg0.N) (y : S64x64.Idx) :
    (iblk m c 2 t : Vec Ideal S64x64 .f32) y = weightA m c y := by
  unfold iblk
  exact read_whole_2 t (V m c main_arg4) y

theorem bias_block (c : Dev nD) (t : Fin cfg0.N) (y : S1x64.Idx) :
    (iblk m c 3 t : Vec Ideal S1x64 .f32) y = biasA m c y := by
  unfold iblk
  exact read_whole_3 t (V m c main_v14) y

theorem scale_block (c : Dev nD) (t : Fin cfg0.N) (y : S1x1.Idx) :
    (iblk m c 4 t : Vec Ideal S1x1 .f32) y = scaleA m c y := by
  unfold iblk
  exact read_whole_4 t (V m c main_v13) y

end Cert.KernelIdeal.Hand

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Block.lean ====
/-
  What the kernel body computes from the blocks it loads, entry by entry over the extended reals.

  With `e` the 1 × 1 scale, `a` and `x` the 10000 × 64 blocks of aggregated messages and of node features, `w` the
  64 × 64 weight and `b` the 1 × 64 bias row:
    the first stored value at (p, d) is  a[p, d] + e[0, 0] · x[p, d];
    the second stored value at (p, q) is the row p of the first against column q of the weight, summed over the 64
    features (the product into the zero accumulator is that plain sum), plus b[0, q].
-/
import proofs.«123866_j62586263437744_1_alg».proof.Proof.Gen.KernelIdeal.Skeleton
import proofs.«123866_j62586263437744_1_alg».proof.Proof.LibDot
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The scalar taken out of the 1 × 1 block is its entry (0, 0). -/
theorem scale_eq (e : Vec Ideal S1x1 .f32) : extractAt ![0, 0] e inpos_S1x1_p0_0 = e (ix2 0 0) := by
  unfold extractAt
  congr 1
  funext a
  match a with
  | ⟨0, _⟩ => rfl
  | ⟨1, _⟩ => rfl

/-- The first stored value: messages plus scaled features, entry by entry. -/
theorem self_term_apply (e : Vec Ideal S1x1 .f32) (a x : Vec Ideal S10000x64 .f32) (j : S10000x64.Idx) :
    k0_pay1 (F := Ideal) e a x j = a j + e (ix2 0 0) * x j := by
  unfold k0_pay1
  rw [shapeCast_self, scale_eq]
  rfl

/-- The second stored value at (p, q): the first one's row p against the weight's column q, plus the bias at q. -/
theorem dense_apply (e : Vec Ideal S1x1 .f32) (a x : Vec Ideal S10000x64 .f32) (w : Vec Ideal S64x64 .f32)
    (b : Vec Ideal S1x64 .f32) (p : Fin 10000) (q : Fin 64) :
    k0_pay2 (F := Ideal) e a x w b (ix2 p q)
      = (∑ k : Fin 64, k0_pay1 (F := Ideal) e a x (ix2 p k) * w (ix2 k q)) + b (ix2 0 q) := by
  unfold k0_pay2
  rw [shapeCast_self]
  show matmul (F := Ideal) dot_S10000x64_S64x64_S10000x64_1_0_0_1_n_n none (k0_pay1 (F := Ideal) e a x) w
        (constant S10000x64 .f32 0x00000000#32) (ix2 p q)
      + broadcastTo S10000x64 b broadcasts_S1x64_S10000x64 (ix2 p q) = _
  rw [Cert.LibDot.matmul_10_zero_apply dot_S10000x64_S64x64_S10000x64_1_0_0_1_n_n rfl rfl rfl rfl rfl rfl,
    broadcastTo_apply b broadcasts_S1x64_S10000x64 (ix2 p q) (ix2 0 q) (fun r => match r with
      | ⟨0, _⟩ => by show 0 = if (1 : Nat) = 1 then 0 else _; rw [if_pos rfl]
      | ⟨1, _⟩ => by show q.val = if (64 : Nat) = 1 then 0 else q.val; rw [if_neg (by decide)])]

end Cert.KernelIdeal.Hand

end
-- ==== Proof.Blocks.lean ====
/-
  From the blocks the ten grid points write back to the two whole result arrays.

  The block a point writes is the row block of ONE function of the arrays the call finds: for the second result the
  node representation `rep`, for the first the dense layer `out` of it. The ten row blocks cover all 100000 rows, hence
  each result array ends holding that function everywhere.
-/
import proofs.«123866_j62586263437744_1_alg».proof.Proof.Rows
import proofs.«123866_j62586263437744_1_alg».proof.Proof.Block

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point computes is the arrays' function at the point's rows -/

/-- The first stored value at block entry `y` is the node representation at row `10000·t + y₀`. -/
theorem rep_point (c : Dev nD) (t : Fin cfg0.N) (y : S10000x64.Idx) (i : S100000x64.Idx)
    (h0 : (i 0).val = t.val * 10000 + (y 0).val) (h1 : (i 1).val = (y 1).val) :
    k0_pay1 (F := Ideal) (iblk m c 4 t) (iblk m c 0 t) (iblk m c 1 t) y = repA m c i := by
  refine (self_term_apply (iblk m c 4 t) (iblk m c 0 t) (iblk m c 1 t) y).trans ?_
  rw [agg_block m c t y i h0 h1, feat_block m c t y i h0 h1, scale_block m c t (ix2 0 0)]
  exact (Cert.NodeUpdate.rep_apply (aggA m c) (featA m c) (scaleA m c (ix2 0 0)) i).symm

/-- The second stored value at block entry `(p, q)` is the dense layer at row `10000·t + p`, column `q`. -/
theorem out_point (c : Dev nD) (t : Fin cfg0.N) (p : Fin 10000) (q : Fin 64) (i : S100000x64.Idx)
    (h0 : (i 0).val = t.val * 10000 + p.val) (h1 : (i 1).val = q.val) :
    k0_pay2 (F := Ideal) (iblk m c 4 t) (iblk m c 0 t) (iblk m c 1 t) (iblk m c 2 t) (iblk m c 3 t) (ix2 p q) = outA m c i := by
  refine (dense_apply (iblk m c 4 t) (iblk m c 0 t) (iblk m c 1 t) (iblk m c 2 t) (iblk m c 3 t) p q).trans ?_
  have hrow : t.val * 10000 + p.val < 100000 := by have := idx2_lt0 i; omega
  refine Eq.trans ?_ (Cert.NodeUpdate.out_apply_of (repA m c) (weightA m c) (fun q => biasA m c (ix2 0 q)) i
    ⟨t.val * 10000 + p.val, hrow⟩ q h0 h1).symm
  refine congrArg₂ (· + ·) (Finset.sum_congr rfl fun k _ => ?_) (bias_block m c t (ix2 0 q))
  rw [rep_point m c t (ix2 p k) (ix2 ⟨t.val * 10000 + p.val, hrow⟩ k) rfl rfl, weight_block m c t (ix2 k q)]

/-! ## A result's block at point `t` is rows `10000·t …` of the result array -/

/-- Grid point `t` and block row `r` name an array row. -/
theorem row_lt (t : Fin cfg0.N) (r : Fin 10000) : t.val * 10000 + r.val < 100000 := by
  have hN : cfg0.N = 10 := N_0
  have := t.isLt
  omega

/-- The first result's block at point `t`, read off any array `G`, is rows `10000·t …` of `G`. -/
theorem read_rows_5 (t : Fin cfg0.N) (G : Vec Ideal S100000x64 .f32) (y : S10000x64.Idx) (i : S100000x64.Idx)
    (h0 : (i 0).val = t.val * 10000 + (y 0).val) (h1 : (i 1).val = (y 1).val) :
    (((cfg0.win 5).blk t).view.read (Elt Ideal) G : Vec Ideal S10000x64 .f32) y = G i := by
  obtain ⟨-, -, -, -, -, -, -, -, -, -, e0, e1, -⟩ := block_index t
  have he : ((cfg0.win 5).blk t).view.emb y = i := by
    funext a; apply Fin.ext
    match a with
    | ⟨0, _⟩ => show win0_5.index t (0 : Fin 2) * 10000 + 1 * (y 0).val = (i 0).val; rw [e0, h0]; omega
    | ⟨1, _⟩ => show win0_5.index t (1 : Fin 2) * 64 + 1 * (y 1).val = (i 1).val; rw [e1, h1]; omega
  show G (((cfg0.win 5).blk t).view.emb y) = G i
  rw [he]

/-- The second result's block at point `t`, read off any array `G`, is rows `10000·t …` of `G`. -/
theorem read_rows_6 (t : Fin cfg0.N) (G : Vec Ideal S100000x64 .f32) (y : S10000x64.Idx) (i : S100000x64.Idx)
    (h0 : (i 0).val = t.val * 10000 + (y 0).val) (h1 : (i 1).val = (y 1).val) :
    (((cfg0.win 6).blk t).view.read (Elt Ideal) G : Vec Ideal S10000x64 .f32) y = G i := by
  obtain ⟨-, -, -, -, -, -, -, -, -, -, -, -, e0, e1⟩ := block_index t
  have he : ((cfg0.win 6).blk t).view.emb y = i := by
    funext a; apply Fin.ext
    match a with
    | ⟨0, _⟩ => show win0_6.index t (0 : Fin 2) * 10000 + 1 * (y 0).val = (i 0).val; rw [e0, h0]; omega
    | ⟨1, _⟩ => show win0_6.index t (1 : Fin 2) * 64 + 1 * (y 1).val = (i 1).val; rw [e1, h1]; omega
  show G (((cfg0.win 6).blk t).view.emb y) = G i
  rw [he]

/-- The whole staged block is written back: the part a point writes back of contents `Z` is `Z`. -/
theorem written_5 (t : Fin cfg0.N) (Z : Vec Ideal S10000x64 .f32) (y : S10000x64.Idx) :
    ((cfg0.win 5).cut (grid0.coords t) Z : Vec Ideal S10000x64 .f32) y = Z y := rfl

theorem written_6 (t : Fin cfg0.N) (Z : Vec Ideal S10000x64 .f32) (y : S10000x64.Idx) :
    ((cfg0.win 6).cut (grid0.coords t) Z : Vec Ideal S10000x64 .f32) y = Z y := rfl

/-! ## What a point writes back is its row block of the function -/

theorem rep_flushed (c : Dev nD) (t : Fin cfg0.N) :
    (dats m 0 c).flushed 6 t = ((cfg0.win 6).blk t).view.read (Elt Ideal) (repA m c) := by
  rw [Value.flushed6]
  unfold out0_6
  rw [View.canon_unit_zero hz]
  simp only [View.ld_unit_zero (S := S10000x64) hz, View.ld_unit_zero (S := S1x1) hz]
  refine funext fun (y : S10000x64.Idx) => ?_
  have hr := row_lt t (y 0)
  exact (written_6 t _ y).trans ((rep_point m c t y (ix2 ⟨t.val * 10000 + (y 0).val, hr⟩ (y 1)) rfl rfl).trans
    (read_rows_6 t (repA m c) y (ix2 ⟨t.val * 10000 + (y 0).val, hr⟩ (y 1)) rfl rfl).symm)

theorem out_flushed (c : Dev nD) (t : Fin cfg0.N) :
    (dats m 0 c).flushed 5 t = ((cfg0.win 5).blk t).view.read (Elt Ideal) (outA m c) := by
  rw [Value.flushed5]
  unfold out0_5
  rw [View.canon_unit_zero hz]
  simp only [View.ld_unit_zero (S := S10000x64) hz, View.ld_unit_zero (S := S1x1) hz, View.ld_unit_zero (S := S64x64) hz,
    View.ld_unit_zero (S := S1x64) hz]
  refine funext fun (y : S10000x64.Idx) => ?_
  obtain ⟨p, q, rfl⟩ : ∃ (p : Fin 10000) (q : Fin 64), y = ix2 p q := ⟨y 0, y 1, eq_ix2 y⟩
  have hr := row_lt t p
  exact (written_5 t _ (ix2 p q)).trans ((out_point m c t p q (ix2 ⟨t.val * 10000 + p.val, hr⟩ q) rfl rfl).trans
    (read_rows_5 t (outA m c) (ix2 p q) (ix2 ⟨t.val * 10000 + p.val, hr⟩ q) rfl rfl).symm)

/-! ## The ten row blocks cover the array -/

theorem mem_block5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15_0).slice (win0_5.rect t)).set ↔ _
  rw [View.set_slice_whole, Rect.mem_set_unit]
  exact Iff.rfl

theorem mem_block6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v15_1).slice (win0_6.rect t)).set ↔ _
  rw [View.set_slice_whole, Rect.mem_set_unit]
  exact Iff.rfl

/-- Row `r` lies in the block of point `r / 10000`. -/
theorem cover5 (i : S100000x64.Idx) : ∃ t : Fin cfg0.N, (cfg0.win 5).flush t = true ∧ i ∈ ((cfg0.win 5).blk t).view.set := by
  have hi0 := idx2_lt0 i
  have hi1 := idx2_lt1 i
  have hN : cfg0.N = 10 := N_0
  have ht : (i 0).val / 10000 < cfg0.N := by rw [hN]; omega
  obtain ⟨-, -, -, -, -, -, -, -, -, -, e0, e1, -⟩ := block_index ⟨(i 0).val / 10000, ht⟩
  refine ⟨⟨(i 0).val / 10000, ht⟩, flush0_5 _, ?_⟩
  rw [mem_block5]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    rw [e1]; omega

theorem cover6 (i : S100000x64.Idx) : ∃ t : Fin cfg0.N, (cfg0.win 6).flush t = true ∧ i ∈ ((cfg0.win 6).blk t).view.set := by
  have hi0 := idx2_lt0 i
  have hi1 := idx2_lt1 i
  have hN : cfg0.N = 10 := N_0
  have ht : (i 0).val / 10000 < cfg0.N := by rw [hN]; omega
  obtain ⟨-, -, -, -, -, -, -, -, -, -, -, -, e0, e1⟩ := block_index ⟨(i 0).val / 10000, ht⟩
  refine ⟨⟨(i 0).val / 10000, ht⟩, flush0_6 _, ?_⟩
  rw [mem_block6]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 64 ≤ (i 1).val ∧ (i 1).val < win0_6.index ⟨(i 0).val / 10000, ht⟩ (1 : Fin 2) * 64 + 64
    rw [e1]; omega

/-! ## The result arrays after the run -/

theorem out_final (c : Dev nD) : (dats m 0 c).arrAt 5 cfg0.N = outA m c :=
  (dats m 0 c).arrAt_eq_of_cover 5 (outA m c) (fun t _ => out_flushed m c t) cover5

theorem rep_final (c : Dev nD) : (dats m 0 c).arrAt 6 cfg0.N = repA m c :=
  (dats m 0 c).arrAt_eq_of_cover 6 (repA m c) (fun t _ => rep_flushed m c t) cover6

end Cert.KernelIdeal.Hand

end
-- ==== Proof.Entry.lean ====
/-
  The arrays the kernel call finds, as functions of the program's arguments.

  Before the call the program gathers the feature row of every edge's destination (a negative destination index
  counted from the end), scales it by the edge's value, and adds the scaled rows into the row of the edge's source,
  starting from zero: the aggregated messages `aggOf`. It also re-lays the one-entry scale as a 1 × 1 array and the
  64-entry bias as a 1 × 64 row; the features and the weight are passed as they are.
-/
import proofs.«123866_j62586263437744_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-- The aggregated messages: for every edge, the destination's feature row times the edge's value, added into the
    source's row. -/
def aggOf (x : Vec F S100000x64 .f32) (src dst : Vec F S1600000 .i32) (ev : Vec F S1600000 .f32) : Vec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 src)
    (mulf (broadcastInDim S1600000x64 ![0, 1] bcast_S1600000x1_S1600000x64_0_1 (broadcastInDim S1600000x1 ![0] bcast_S1600000_S1600000x1_0 ev))
      (Host.gather gather_S100000x64_S1600000x1_S1600000x64_1_0_n_n_0_1_164 x
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))

variable (m : (ℓ : Loc nD τ sig) → Buf (Elt F) ℓ)

/-- The call's first operand holds the aggregated messages of the arguments. -/
theorem entry_agg (c : Dev nD) :
    (V m c main_v12 : Vec F S100000x64 .f32)
      = aggOf (m ((c : Thread nD τ).loc main_arg0)) (m ((c : Thread nD τ).loc main_arg1))
          (m ((c : Thread nD τ).loc main_arg2)) (m ((c : Thread nD τ).loc main_arg3)) := by
  dsimp only [V, hostOps0]
  after_results
  rfl

/-- The call's scale operand is the one-entry scale argument re-laid as 1 × 1. -/
theorem entry_scale (c : Dev nD) :
    (V m c main_v13 : Vec F S1x1 .f32) = shapeCast S1x1 (m ((c : Thread nD τ).loc main_arg5) : Vec F S1 .f32) shapeCasts_S1_S1x1 := by
  dsimp only [V, hostOps0]
  after_results
  rfl

/-- The call's bias operand is the bias argument re-laid as a 1 × 64 row. -/
theorem entry_bias (c : Dev nD) :
    (V m c main_v14 : Vec F S1x64 .f32) = shapeCast S1x64 (m ((c : Thread nD τ).loc main_arg6) : Vec F S64 .f32) shapeCasts_S64_S1x64 := by
  dsimp only [V, hostOps0]
  after_results
  rfl

/-- The 1 × 1 scale's entry is the scale argument's entry. -/
theorem entry_scale_apply (c : Dev nD) :
    (V m c main_v13 : Vec F S1x1 .f32) (ix2 0 0) = (m ((c : Thread nD τ).loc main_arg5) : Vec F S1 .f32) (ix1 0) := by
  rw [entry_scale]
  exact shapeCast_apply _ shapeCasts_S1_S1x1 (ix2 0 0) (ix1 0) rfl

/-- The bias row's entry at column `q` is the bias argument's entry `q`. -/
theorem entry_bias_apply (c : Dev nD) (q : Fin 64) :
    (V m c main_v14 : Vec F S1x64 .f32) (ix2 0 q) = (m ((c : Thread nD τ).loc main_arg6) : Vec F S64 .f32) (ix1 q) := by
  rw [entry_bias]
  refine shapeCast_apply _ shapeCasts_S64_S1x64 (ix2 0 q) (ix1 q) ?_
  rw [Shape.rowMajor_val_one, Shape.rowMajor_val_two]
  show q.val = 0 * 64 + q.val
  omega

end Cert.KernelIdeal.Hand

end
-- ==== Proof.Result.lean ====
/-
  The kernel program's run, read in terms of its arguments: the first result array ends holding the dense layer and
  the second the node representation, of the aggregated messages of the arguments, the feature and weight arguments,
  the scale argument's entry and the bias argument's entries.
-/
import proofs.«123866_j62586263437744_1_alg».proof.Proof.Blocks
import proofs.«123866_j62586263437744_1_alg».proof.Proof.Entry

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx

variable (m : (ℓ : Loc nD τ sig) → Buf (Elt Ideal) ℓ) (ρ : Dev nD → PrngReg)

/-- The node representation of the arguments. -/
def repOf (c : Dev nD) : Vec Ideal S100000x64 .f32 :=
  Cert.NodeUpdate.rep
    (aggOf (m ((c : Thread nD τ).loc main_arg0)) (m ((c : Thread nD τ).loc main_arg1)) (m ((c : Thread nD τ).loc main_arg2))
      (m ((c : Thread nD τ).loc main_arg3)))
    (m ((c : Thread nD τ).loc main_arg0)) ((m ((c : Thread nD τ).loc main_arg5) : Vec Ideal S1 .f32) (ix1 0))

/-- The dense layer of it. -/
def outOf (c : Dev nD) : Vec Ideal S100000x64 .f32 :=
  Cert.NodeUpdate.out (repOf m c) (m ((c : Thread nD τ).loc main_arg4))
    (fun q => (m ((c : Thread nD τ).loc main_arg6) : Vec Ideal S64 .f32) (ix1 q))

theorem repA_eq (c : Dev nD) : repA m c = repOf m c := by
  unfold repA repOf
  rw [show aggA m c = _ from entry_agg m c, show featA m c = _ from V_main_arg0 m c,
    show scaleA m c (ix2 0 0) = _ from entry_scale_apply m c]

theorem outA_eq (c : Dev nD) : outA m c = outOf m c := by
  unfold outA outOf
  rw [repA_eq, show weightA m c = _ from V_main_arg4 m c]
  exact congrArg (Cert.NodeUpdate.out (repOf m c) (m ((c : Thread nD τ).loc main_arg4)))
    (funext fun q => entry_bias_apply m c q)

/-- Every execution of the kernel program ends with the two results at `outOf` and `repOf`, the arguments unchanged. -/
theorem run : θ_run defs (onTc (τ := τ) (main (F := Ideal))) ⟨m, fun _ => 0, ρ⟩ fun r => ∀ c : Dev nD,
      r.2.mem ((c : Thread nD τ).loc main_v15_0) = outOf m c
      ∧ r.2.mem ((c : Thread nD τ).loc main_v15_1) = repOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
      ⟨(h c).1.trans ((out_final m c).trans (outA_eq m c)),
        (h c).2.1.trans ((rep_final m c).trans (repA_eq m c)),
        (h c).2.2⟩)
    (Cert.KernelIdeal.Value.run_blocks m ρ)

end Cert.KernelIdeal.Hand

end
-- ==== Proof.RefValue.lean ====
/-
  The reference program's two results, entry by entry over the extended reals, are the same two functions the kernel
  computes: its second result is the aggregated messages plus the scale argument's entry times the features (the
  scale broadcast to every entry), and its first result is the matrix product of that with the weight — at an entry the
  sum over the 64 features — plus the bias broadcast along the rows.
-/
import proofs.«123866_j62586263437744_1_alg».proof.Proof.Gen.ReferenceIdeal.Read
import proofs.«123866_j62586263437744_1_alg».proof.Proof.NodeUpdate

noncomputable section

open scoped BigOperators

namespace Cert.ReferenceIdeal.Hand

open Cert.ReferenceIdeal Cert.ReferenceIdeal.Gen Cert.ReferenceIdeal.Read
open Idealize.ShloMosaic Idealize.ShloMosaic.ValueIdx

/-- The reference's node representation is `rep` of its aggregated messages, the features and the scale's entry. -/
theorem rep_ref (x0 : (⟨S100000x64, .f32⟩ : BufTy).Contents (Elt Ideal)) (x1 x2 : (⟨S1600000, .i32⟩ : BufTy).Contents (Elt Ideal))
    (x3 : (⟨S1600000, .f32⟩ : BufTy).Contents (Elt Ideal)) (x5 : (⟨S1, .f32⟩ : BufTy).Contents (Elt Ideal)) :
    val_main_v16 (F := Ideal) x0 x1 x2 x3 x5
      = Cert.NodeUpdate.rep (val_main_v12 (F := Ideal) x0 x1 x2 x3) x0 (x5 (ix1 0)) := by
  funext i
  rw [val_main_v16_apply, val_main_v15_apply, val_main_v14_apply, val_main_v13_apply]
  have hs : idx_main_v13 (idx_main_v14 i) = ix1 0 := funext fun a => by
    match a with
    | ⟨0, _⟩ => rfl
  rw [hs]
  rfl

/-- The reference's output is the dense layer `out` of its node representation, the weight and the bias. -/
theorem out_ref (x0 : (⟨S100000x64, .f32⟩ : BufTy).Contents (Elt Ideal)) (x1 x2 : (⟨S1600000, .i32⟩ : BufTy).Contents (Elt Ideal))
    (x3 : (⟨S1600000, .f32⟩ : BufTy).Contents (Elt Ideal)) (x4 : (⟨S64x64, .f32⟩ : BufTy).Contents (Elt Ideal))
    (x5 : (⟨S1, .f32⟩ : BufTy).Contents (Elt Ideal)) (x6 : (⟨S64, .f32⟩ : BufTy).Contents (Elt Ideal)) :
    val_main_v20 (F := Ideal) x0 x1 x2 x3 x4 x5 x6
      = Cert.NodeUpdate.out (val_main_v16 (F := Ideal) x0 x1 x2 x3 x5) x4 (fun q => x6 (ix1 q)) := by
  funext i
  obtain ⟨p, q, rfl⟩ : ∃ (p : Fin 100000) (q : Fin 64), i = ix2 p q := ⟨i 0, i 1, eq_ix2 i⟩
  rw [val_main_v20_apply, val_main_v17_apply, val_main_v19_apply, val_main_v18_apply, Cert.NodeUpdate.out_apply]
  have hl : ∀ k : Fin 64, lidx_main_v17 (ix2 p q) k = ix2 p k := fun k => funext fun a => by
    match a with
    | ⟨0, _⟩ => rfl
    | ⟨1, _⟩ => rfl
  have hr : ∀ k : Fin 64, ridx_main_v17 (ix2 p q) k = ix2 k q := fun k => funext fun a => by
    match a with
    | ⟨0, _⟩ => rfl
    | ⟨1, _⟩ => rfl
  have hb : idx_main_v18 (idx_main_v19 (ix2 p q)) = ix1 q := funext fun a => by
    match a with
    | ⟨0, _⟩ => rfl
  simp only [hl, hr, hb]
  rfl

end Cert.ReferenceIdeal.Hand

end
-- ==== Proof.Same.lean ====
/-
  The two programs aggregate the messages by the same sequence of array operations — gather the destination rows,
  scale them by the edge values, add them into the source rows starting from zero — with the same dimension numbers,
  so their aggregated messages are one function of the arguments, and with it both of the reference's results are the
  functions the kernel program ends with.
-/
import proofs.«123866_j62586263437744_1_alg».proof.Proof.Entry
import proofs.«123866_j62586263437744_1_alg».proof.Proof.RefValue

noncomputable section

namespace Cert.Proof.Hand

open Idealize.ShloMosaic Idealize.ShloMosaic.ValueIdx

/-- The reference's aggregated messages are the kernel program's. -/
theorem agg_same (x0 : (⟨Cert.ReferenceIdeal.S100000x64, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal)) :
    Cert.ReferenceIdeal.Read.val_main_v12 (F := Ideal) x0 x1 x2 x3 = Cert.KernelIdeal.Hand.aggOf (F := Ideal) x0 x1 x2 x3 := rfl

/-- The reference's node representation, over the kernel program's aggregated messages. -/
theorem ref_rep (x0 : (⟨Cert.ReferenceIdeal.S100000x64, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x5 : (⟨Cert.ReferenceIdeal.S1, .f32⟩ : BufTy).Contents (Elt Ideal)) :
    Cert.ReferenceIdeal.Read.val_main_v16 (F := Ideal) x0 x1 x2 x3 x5
      = Cert.NodeUpdate.rep (Cert.KernelIdeal.Hand.aggOf (F := Ideal) x0 x1 x2 x3) x0 (x5 (ix1 0)) := by
  rw [Cert.ReferenceIdeal.Hand.rep_ref, agg_same]

/-- The reference's output, over the kernel program's aggregated messages. -/
theorem ref_out (x0 : (⟨Cert.ReferenceIdeal.S100000x64, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S64x64, .f32⟩ : BufTy).Contents (Elt Ideal))
    (x5 : (⟨Cert.ReferenceIdeal.S1, .f32⟩ : BufTy).Contents (Elt Ideal))
    (x6 : (⟨Cert.ReferenceIdeal.S64, .f32⟩ : BufTy).Contents (Elt Ideal)) :
    Cert.ReferenceIdeal.Read.val_main_v20 (F := Ideal) x0 x1 x2 x3 x4 x5 x6
      = Cert.NodeUpdate.out (Cert.NodeUpdate.rep (Cert.KernelIdeal.Hand.aggOf (F := Ideal) x0 x1 x2 x3) x0 (x5 (ix1 0))) x4
          (fun q => x6 (ix1 q)) := by
  rw [Cert.ReferenceIdeal.Hand.out_ref, ref_rep]

end Cert.Proof.Hand

end
-- ==== Proof.lean ====
/-
  One round of sum-aggregation message passing on a graph: the kernel program against its plain reference.

  Both programs first aggregate the messages A = Σ over edges (value · features of the destination) into the rows of
  the sources, by the same array operations. The reference then computes, on whole arrays,
      rep = A + ε · X        and        out = rep · W + b.
  The kernel program computes the same two arrays in one call over ten blocks of 10000 node rows: at each block it
  forms rep's rows, stores them, multiplies them by the whole 64 × 64 weight into a zero accumulator and adds the
  bias row. Over the extended reals a product into the zero accumulator is the plain sum over the 64 features, and a
  change of tiling changes no entry, so entry by entry both programs hold
      rep[n, d] = A[n, d] + ε · X[n, d],      out[n, o] = Σ_k rep[n, k] · W[k, o] + b[o],
  the same sums in the same order; no law of arithmetic is needed beyond that, and so no finiteness of the inputs.

  The pieces: the two functions (NodeUpdate), the body's two stored values at an entry (Block), the arrays the call
  finds (Entry), each loaded block as rows of its array (Rows), the written blocks and their cover of the result
  arrays (Blocks), the kernel program's run in terms of its arguments (Result), the reference's two results as the
  same functions (RefValue), and that both programs aggregate alike (Same). The idealized kernel program is the kernel
  program's own text read over the extended reals, so the idealization claim is trivial.
-/
import proofs.«123866_j62586263437744_1_alg».proof.Defs
import proofs.«123866_j62586263437744_1_alg».proof.Proof.Gen.Kernel
import proofs.«123866_j62586263437744_1_alg».proof.Proof.Gen.Kernel.Skeleton
import proofs.«123866_j62586263437744_1_alg».proof.Proof.Gen.Kernel.Launch
import proofs.«123866_j62586263437744_1_alg».proof.Proof.Gen.Kernel.Points
import proofs.«123866_j62586263437744_1_alg».proof.Proof.Gen.Kernel.Frame
import proofs.«123866_j62586263437744_1_alg».proof.Proof.Gen.KernelIdeal
import proofs.«123866_j62586263437744_1_alg».proof.Proof.Gen.KernelIdeal.Skeleton
import proofs.«123866_j62586263437744_1_alg».proof.Proof.Gen.KernelIdeal.Launch
import proofs.«123866_j62586263437744_1_alg».proof.Proof.Gen.KernelIdeal.Points
import proofs.«123866_j62586263437744_1_alg».proof.Proof.Gen.KernelIdeal.Frame
import proofs.«123866_j62586263437744_1_alg».proof.Proof.Gen.ReferenceIdeal
import proofs.«123866_j62586263437744_1_alg».proof.Proof.Gen.Pre_finite_inputs
import proofs.«123866_j62586263437744_1_alg».proof.Proof.Gen.KernelIdeal.Value
import proofs.«123866_j62586263437744_1_alg».proof.Proof.Gen.ReferenceIdeal.Run
import proofs.«123866_j62586263437744_1_alg».proof.Proof.Gen.ReferenceIdeal.Read
import proofs.«123866_j62586263437744_1_alg».proof.Proof.Result
import proofs.«123866_j62586263437744_1_alg».proof.Proof.Same
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of array operations: it runs, and its run leaves the arguments as they were. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with `out` and `rep` of the same aggregated messages of arguments that agree. -/
theorem algebraic : Cert.algebraic_KernelIdeal_ReferenceIdeal := by
  intro m ρ m' ρ' _ hagree
  refine ⟨fun c => Cert.KernelIdeal.Hand.outOf m c, fun c => Cert.KernelIdeal.Hand.repOf m c,
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [a0, a1, a2, a3, a4, a5, a6]
    exact (Cert.ReferenceIdeal.Read.val_main_v20_eq _ _ _ _ _ _ _).trans (Cert.Proof.Hand.ref_out _ _ _ _ _ _ _)
  · rw [a0, a1, a2, a3, a5]
    exact (Cert.ReferenceIdeal.Read.val_main_v16_eq _ _ _ _ _).trans (Cert.Proof.Hand.ref_rep _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
